-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x4096 : Shape := ⟨3, ![8, 128, 4096]⟩
abbrev S8x2048x4096 : Shape := ⟨3, ![8, 2048, 4096]⟩
abbrev S128x4096 : Shape := ⟨2, ![128, 4096]⟩
abbrev S_ : Shape := ⟨0, ![]⟩

class Facts : Prop where
  bcast_S_S8x128x4096 : S_.BroadcastsInDim S8x128x4096 (![] : Fin 0 → Fin S8x128x4096.rank)
  reducesTo_S8x128x4096_S_d0_1_2 : S8x128x4096.ReducesTo [0, 1, 2] S_
  h_S_ : 0 < S_.numel
  bcast_S_S8x2048x4096 : S_.BroadcastsInDim S8x2048x4096 (![] : Fin 0 → Fin S8x2048x4096.rank)
  reducesTo_S8x2048x4096_S_d0_1_2 : S8x2048x4096.ReducesTo [0, 1, 2] S_
  bcast_S_S128x4096 : S_.BroadcastsInDim S128x4096 (![] : Fin 0 → Fin S128x4096.rank)
  reducesTo_S128x4096_S_d0_1 : S128x4096.ReducesTo [0, 1] S_

variable [Facts]

def fn {F : FTy → Type} [FloatOps F] (main_arg0 : FVec F S8x128x4096 .f32) (main_arg1 : FVec F S8x2048x4096 .f32) (main_arg2 : FVec F S128x4096 .f32) : IVec S_ 1 :=
  let main_v0 : FVec F S8x128x4096 .f32 := Host.absf main_arg0
  let main_cst : FVec F S_ .f32 := constant S_ .f32 0x7F800000#32
  let main_v1 : FVec F S8x128x4096 .f32 := broadcastInDim S8x128x4096 ![] bcast_S_S8x128x4096 main_cst
  let main_v2 : IVec S8x128x4096 1 := cmpf .olt main_v0 main_v1
  let main_c : IVec S_ 1 := constantI S_ 1 1#1
  let main_v3 : IVec S_ 1 := (fun x v => Host.reduce IntOp.andi x v reducesTo_S8x128x4096_S_d0_1_2 h_S_) main_v2 main_c
  let main_v4 : FVec F S8x2048x4096 .f32 := Host.absf main_arg1
  let main_cst_0 : FVec F S_ .f32 := constant S_ .f32 0x7F800000#32
  let main_v5 : FVec F S8x2048x4096 .f32 := broadcastInDim S8x2048x4096 ![] bcast_S_S8x2048x4096 main_cst_0
  let main_v6 : IVec S8x2048x4096 1 := cmpf .olt main_v4 main_v5
  let main_c_1 : IVec S_ 1 := constantI S_ 1 1#1
  let main_v7 : IVec S_ 1 := (fun x v => Host.reduce IntOp.andi x v reducesTo_S8x2048x4096_S_d0_1_2 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  main_v13
-- ==== Kernel.lean ====
abbrev S8x128x4096 : Shape := ⟨3, ![8, 128, 4096]⟩
abbrev S8x2048x4096 : Shape := ⟨3, ![8, 2048, 4096]⟩
abbrev S128x4096 : Shape := ⟨2, ![128, 4096]⟩
abbrev S1x256x4096 : Shape := ⟨3, ![1, 256, 4096]⟩
abbrev S1x128x4096 : Shape := ⟨3, ![1, 128, 4096]⟩
abbrev S256x4096 : Shape := ⟨2, ![256, 4096]⟩
abbrev S4096x128 : Shape := ⟨2, ![4096, 128]⟩
abbrev S256x128 : Shape := ⟨2, ![256, 128]⟩

abbrev nBuf : Space → Nat
  | .hbm => 4
  | .vmem => 7
  | .smem => 0
  | _ => 0

abbrev bufTy : (tb : Table) → Fin (tcTables nBuf tb) → BufTy
  | .hbm, ⟨0, _⟩ => ⟨S8x128x4096, .f32⟩
  | .hbm, ⟨1, _⟩ => ⟨S8x2048x4096, .f32⟩
  | .hbm, ⟨2, _⟩ => ⟨S128x4096, .f32⟩
  | .hbm, ⟨3, _⟩ => ⟨S8x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S128x4096, .f32⟩
  | .local _ .vmem, ⟨3, _⟩ => ⟨S1x128x4096, .f32⟩
  | .local _ .vmem, ⟨4, _⟩ => ⟨S1x128x4096, .f32⟩
  | .local _ .vmem, ⟨5, _⟩ => ⟨S1x256x4096, .f32⟩
  | .local _ .vmem, ⟨6, _⟩ => ⟨S1x256x4096, .f32⟩
  | _, _ => ⟨S8x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  transposes_S128x4096_p1_0_S4096x128 : S128x4096.Transposes [1, 0] S4096x128
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S256x4096_S1x256x4096 : S256x4096.ShapeCasts S1x256x4096
  dot_S256x4096_S4096x128_S256x128_1_0_0_1_n_n_wf : DotDims.WF S256x4096 S4096x128 S256x128 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x2048x4096.size a
  hwx0_0 : ∀ i : grid0.Coords, EltTy.bits .f32 = 32 ∨ (Rect.block (s := S8x2048x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .f32 = 32 ∨ (Rect.block (s := S128x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S8x128x4096.size a
  hwx0_2 : ∀ i : grid0.Coords, EltTy.bits .f32 = 32 ∨ (Rect.block (s := S8x128x4096) S1x128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x2048x4096.size a
  hwx0_3 : ∀ i : grid0.Coords, EltTy.bits .f32 = 32 ∨ (Rect.block (s := S8x2048x4096) S1x256x4096.size (cc0_transform_3 i) (hinb0_3 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_arg1) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x128x4096 : Shape := ⟨3, ![8, 128, 4096]⟩
abbrev S8x2048x4096 : Shape := ⟨3, ![8, 2048, 4096]⟩
abbrev S128x4096 : Shape := ⟨2, ![128, 4096]⟩
abbrev S8x2048x128 : Shape := ⟨3, ![8, 2048, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x128x4096, .f32⟩
  | .hbm, ⟨1, _⟩ => ⟨S8x2048x4096, .f32⟩
  | .hbm, ⟨2, _⟩ => ⟨S128x4096, .f32⟩
  | .hbm, ⟨3, _⟩ => ⟨S8x2048x128, .f32⟩
  | .hbm, ⟨4, _⟩ => ⟨S8x2048x4096, .f32⟩
  | .hbm, ⟨5, _⟩ => ⟨S_, .f32⟩
  | .hbm, ⟨6, _⟩ => ⟨S8x2048x4096, .f32⟩
  | .hbm, ⟨7, _⟩ => ⟨S8x2048x4096, .f32⟩
  | _, _ => ⟨S8x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x4096_S128x4096_S8x2048x128_2_1_01_0_n_n_wf : DotDims.WF S8x2048x4096 S128x4096 S8x2048x128 [2] [1] [0, 1] [0] [] []
  dot_S8x2048x128_S8x128x4096_S8x2048x4096_2_1_1_2_0_0_wf : DotDims.WF S8x2048x128 S8x128x4096 S8x2048x4096 [2] [1] [1] [2] [0] [0]

variable [Facts₀]

def dot_S8x2048x4096_S128x4096_S8x2048x128_2_1_01_0_n_n : DotDims S8x2048x4096 S128x4096 S8x2048x128 where
  lhsContracting := [2]
  rhsContracting := [1]
  lhsNonContracting := [0, 1]
  rhsNonContracting := [0]
  lhsBatch := []
  rhsBatch := []
  wf := dot_S8x2048x4096_S128x4096_S8x2048x128_2_1_01_0_n_n_wf
def dot_S8x2048x128_S8x128x4096_S8x2048x4096_2_1_1_2_0_0 : DotDims S8x2048x128 S8x128x4096 S8x2048x4096 where
  lhsContracting := [2]
  rhsContracting := [1]
  lhsNonContracting := [1]
  rhsNonContracting := [2]
  lhsBatch := [0]
  rhsBatch := [0]
  wf := dot_S8x2048x128_S8x128x4096_S8x2048x4096_2_1_1_2_0_0_wf

class Facts : Prop extends Facts₀ where

variable [Facts]
-- ==== Proof.Spec.lean ====
/- The low-rank update as one function of the three argument arrays.

   For a batch b, a sequence position s and an output feature o the result is

       out (b, s, o) = ( sum over r < 128 of  down (b, s, r) * g (b, r, o) ) * 2,
       down (b, s, r) = sum over i < 4096 of  x (b, s, i) * w (r, i):

   the input row is projected onto the 128 rows of the down weight, the projection is multiplied into that batch's
   128 x 4096 matrix, and the product is scaled by alpha / r = 2. Both programs compute exactly this nest of two
   sums, so no law of the extended reals beyond the shape of the sums is used. -/
import Idealize.ShloMosaic.PureOps.Ideal
import Idealize.ShloMosaic.Lib.ValueIdx

noncomputable section

namespace Cert.Lora

open Idealize.ShloMosaic Idealize.ShloMosaic.ValueIdx
open scoped BigOperators

/-- The per-batch matrices g : [8, 128, 4096]. -/
abbrev SG : Shape := ⟨3, ![8, 128, 4096]⟩
/-- The input rows x, and the result : [8, 2048, 4096]. -/
abbrev SX : Shape := ⟨3, ![8, 2048, 4096]⟩
/-- The down weight w : [128, 4096]. -/
abbrev SW : Shape := ⟨2, ![128, 4096]⟩

/-- The scale alpha / r, the float 2.0 by its word. -/
abbrev scale : EReal := Ideal.ofBits .f32 0x40000000#32

/-- The projection of input row (b, s) onto row r of the down weight. -/
def down (x : SX.Idx → EReal) (w : SW.Idx → EReal) (b : Fin 8) (s : Fin 2048) (r : Fin 128) : EReal :=
  ∑ i : Fin 4096, x (ix3 b s i) * w (ix2 r i)

/-- The result at explicit coordinates. -/
def loraAt (g : SG.Idx → EReal) (x : SX.Idx → EReal) (w : SW.Idx → EReal) (b : Fin 8) (s : Fin 2048) (o : Fin 4096) : EReal :=
  (∑ r : Fin 128, down x w b s r * g (ix3 b r o)) * scale

/-- The result array. -/
def lora (g : SG.Idx → EReal) (x : SX.Idx → EReal) (w : SW.Idx → EReal) : SX.Idx → EReal :=
  fun j => loraAt g x w (j 0) (j 1) (j 2)

theorem lora_ix3 (g : SG.Idx → EReal) (x : SX.Idx → EReal) (w : SW.Idx → EReal) (b : Fin 8) (s : Fin 2048) (o : Fin 4096) :
    lora g x w (ix3 b s o) = loraAt g x w b s o := rfl

end Cert.Lora

end
-- ==== Proof.LoraRef.lean ====
/- The reference computes the low-rank update: its two contractions, read at an index, are the two sums of the
   specification. The first contraction pairs the last axis of x with the last axis of w; the second is batched over
   b and pairs the projection's last axis with the middle axis of g; the last operation multiplies by the scale. -/
import proofs.«100756_j62156766708153_1_alg».proof.Proof.Gen.ReferenceIdeal.Read
import proofs.«100756_j62156766708153_1_alg».proof.Proof.Spec

noncomputable section

namespace Cert.Lora.Ref

open Idealize.ShloMosaic Idealize.ShloMosaic.ValueIdx Cert.ReferenceIdeal Cert.ReferenceIdeal.Read
open scoped BigOperators

/-- The first contraction reads x at (b, s, i) ... -/
theorem lidx0 (b : Fin 8) (s : Fin 2048) (r : Fin 128) (i : Fin 4096) :
    lidx_main_v0 (ix3 b s r) i = ix3 b s i :=
  funext fun a => Fin.ext (by match a with | ⟨0, _⟩ => rfl | ⟨1, _⟩ => rfl | ⟨2, _⟩ => rfl)

/-- ... and w at (r, i). -/
theorem ridx0 (b : Fin 8) (s : Fin 2048) (r : Fin 128) (i : Fin 4096) :
    ridx_main_v0 (ix3 b s r) i = ix2 r i :=
  funext fun a => Fin.ext (by match a with | ⟨0, _⟩ => rfl | ⟨1, _⟩ => rfl)

/-- The second contraction reads the projection at (b, s, r) ... -/
theorem lidx1 (b : Fin 8) (s : Fin 2048) (o : Fin 4096) (r : Fin 128) :
    lidx_main_v1 (ix3 b s o) r = ix3 b s r :=
  funext fun a => Fin.ext (by match a with | ⟨0, _⟩ => rfl | ⟨1, _⟩ => rfl | ⟨2, _⟩ => rfl)

/-- ... and g at (b, r, o). -/
theorem ridx1 (b : Fin 8) (s : Fin 2048) (o : Fin 4096) (r : Fin 128) :
    ridx_main_v1 (ix3 b s o) r = ix3 b r o :=
  funext fun a => Fin.ext (by match a with | ⟨0, _⟩ => rfl | ⟨1, _⟩ => rfl | ⟨2, _⟩ => rfl)

/-- The first contraction at explicit coordinates is the projection of row (b, s) onto row r. -/
theorem proj_at (x : SX.Idx → EReal) (w : SW.Idx → EReal) (b : Fin 8) (s : Fin 2048) (r : Fin 128) :
    val_main_v0 (F := Ideal) x w (ix3 b s r) = down x w b s r := by
  rw [val_main_v0_apply]
  unfold down
  exact Finset.sum_congr rfl fun i _ => by rw [lidx0, ridx0]

/-- The reference's result is the specification's array. -/
theorem ref_eq (g : SG.Idx → EReal) (x : SX.Idx → EReal) (w : SW.Idx → EReal) :
    val_main_v3 (F := Ideal) g x w = lora g x w := by
  funext j
  obtain ⟨b, s, o, rfl⟩ : ∃ (b : Fin 8) (s : Fin 2048) (o : Fin 4096), j = ix3 b s o := ⟨j 0, j 1, j 2, eq_ix3 j⟩
  rw [val_main_v3_apply, val_main_v1_apply, val_main_v2_apply, val_main_cst_apply, lora_ix3]
  show (∑ k : Fin 128, val_main_v0 (F := Ideal) x w (lidx_main_v1 (ix3 b s o) k) * g (ridx_main_v1 (ix3 b s o) k)) * Ideal.ofBits .f32 0x40000000#32
    = loraAt g x w b s o
  unfold loraAt
  refine congrArg (· * scale) (Finset.sum_congr rfl fun r _ => ?_)
  rw [lidx1, ridx1, proj_at]

end Cert.Lora.Ref

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.LoraPayload.lean ====
/- The kernel body's stored value, read at one index of its block.

   The body loads a 256-row block of x (with a leading unit axis), the whole down weight, and one batch's
   128 x 4096 matrix (again with a leading unit axis). It multiplies the x block into the transposed weight
   (a 256 x 128 projection), multiplies the projection into the batch's matrix, scales by 2 and puts the
   unit axis back. The changes of float format are the identity on the extended reals, each product goes into
   a zero accumulator and so is the plain sum over its contracted coordinate, and the transpose swaps the two
   coordinates of the weight. So the stored value at (u, p, o) is
       ( sum over r of ( sum over i of x0 (0, p, i) * x1 (r, i) ) * x2 (0, r, o) ) * 2. -/
import proofs.«100756_j62156766708153_1_alg».proof.Proof.Gen.KernelIdeal.Skeleton
import proofs.«100756_j62156766708153_1_alg».proof.Proof.Spec
import proofs.«100756_j62156766708153_1_alg».proof.Proof.LibDotPlain
import Idealize.ShloMosaic.Lib.ValueLayout
import Idealize.ShloMosaic.Lib.Pipeline.Value

noncomputable section

namespace Cert.Lora.Body

open Idealize.ShloMosaic Idealize.ShloMosaic.ValueIdx Cert.KernelIdeal Cert.KernelIdeal.Gen
open scoped BigOperators

/-- The body's stored value at (u, p, o), from the three loaded blocks. -/
theorem pay_at (x0 : Vec Ideal S1x256x4096 .f32) (x1 : Vec Ideal S128x4096 .f32) (x2 : Vec Ideal S1x128x4096 .f32)
    (u : Fin 1) (p : Fin 256) (o : Fin 4096) :
    k0_pay1 (F := Ideal) x0 x1 x2 (ix3 u p o)
      = (∑ r : Fin 128, (∑ i : Fin 4096, x0 (ix3 (0 : Fin 1) p i) * x1 (ix2 r i)) * x2 (ix3 (0 : Fin 1) r o)) * scale := by
  unfold k0_pay1
  dsimp only
  -- the unit axis put back, the scaling, then the second product as a sum over r
  rw [shapeCast_ab_1ab_apply, mulf_apply, broadcast_apply]
  simp only [matmul]
  rw [Cert.DotPlain.matmul_zero_rows_cols _ rfl rfl rfl rfl rfl rfl]
  refine congrArg (· * scale) (Finset.sum_congr rfl fun r _ => ?_)
  -- the projection at (p, r) as a sum over i; the batch's matrix at (r, o)
  rw [truncf_apply, truncf_apply, shapeCast_1ab_ab_apply, Cert.DotPlain.matmul_zero_rows_cols _ rfl rfl rfl rfl rfl rfl]
  refine congrArg (· * _) (Finset.sum_congr rfl fun i _ => ?_)
  rw [truncf_apply, shapeCast_1ab_ab_apply, transpose_ix2_apply, truncf_apply]

end Cert.Lora.Body

end
-- ==== Proof.LoraBlocks.lean ====
/- From blocks to the array: after the run the kernel's result array is the low-rank update of the argument arrays.

   Grid point t = (b, s') stages rows s' * 256 .. s' * 256 + 255 of batch b of x, the whole down weight, and the whole
   matrix of batch b, and writes back the same rows of batch b of the result. Inside that block the body's value at
   local row p and column o is the specification at (b, s' * 256 + p, o), because the x block's row p is the array's row
   s' * 256 + p of batch b and the matrix block is the array's batch b. The 8 x 8 blocks tile the [8, 2048, 4096] array:
   row s of batch b lies in the block of the point (b, s / 256). -/
import proofs.«100756_j62156766708153_1_alg».proof.Proof.Gen.KernelIdeal.Value
import proofs.«100756_j62156766708153_1_alg».proof.Proof.LoraPayload

set_option maxRecDepth 16384

noncomputable section

namespace Cert.Lora.Blocks

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the 64 grid points: the x window moves with the result window, the weight window stays at
    block (0, 0), the matrix window follows the result's batch, and the result's block indices are a batch below 8, a
    row block below 8 and column block 0. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0
    ∧ win0_1.index t (1 : Fin 2) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 7
    ∧ win0_3.index t (1 : Fin 3) ≤ 7
    ∧ win0_3.index t (2 : Fin 3) = 0 :=
  (by decide +kernel : ∀ t : Fin grid0.N, _)

/-- Every (batch, row block) pair is some point's block. -/
theorem idx_onto : ∀ (q0 : Fin 8) (q1 : Fin 8), ∃ t : Fin cfg0.N, win0_3.index t = ![q0.val, q1.val, 0] :=
  (by decide +kernel : ∀ (q0 : Fin 8) (q1 : Fin 8), ∃ t : Fin grid0.N, win0_3.index t = ![q0.val, q1.val, 0])

/-- What point t writes back is block t of the low-rank update of the argument arrays. -/
theorem flushed_eq (c : Dev nD) (t : Fin cfg0.N) :
    (dats m 0 c).flushed 3 t
      = ((cfg0.win 3).blk t).view.read (Elt Ideal) (lora (V m c main_arg0) (V m c main_arg1) (V m c main_arg2)) := by
  rw [Cert.KernelIdeal.Value.flushed3]
  unfold out0_3
  rw [View.canon_unit_zero zero3]
  simp only [View.ld_unit_zero (S := S1x256x4096) zero3, View.ld_unit_zero (S := S128x4096) zero2,
    View.ld_unit_zero (S := S1x128x4096) zero3]
  funext y
  obtain ⟨u, p, o, rfl⟩ : ∃ (u : Fin 1) (p : Fin 256) (o : Fin 4096), y = ix3 u p o := ⟨y 0, y 1, y 2, eq_ix3 y⟩
  show k0_pay1 (F := Ideal) (iblk m c 0 t) (iblk m c 1 t) (iblk m c 2 t) (ix3 u p o)
    = lora (V m c main_arg0) (V m c main_arg1) (V m c main_arg2) (((cfg0.win 3).blk t).view.emb (ix3 u p o))
  refine (Cert.Lora.Body.pay_at (iblk m c 0 t) (iblk m c 1 t) (iblk m c 2 t) u p o).trans ?_
  obtain ⟨e00, e01, e02, e10, e11, e20, e21, e22, b0, b1, e32⟩ := idx_facts t
  have hu : u.val = 0 := by omega
  -- the array index the block index (u, p, o) lands on, by coordinates
  obtain ⟨b, s, o', hj⟩ : ∃ (b : Fin 8) (s : Fin 2048) (o' : Fin 4096),
      ((cfg0.win 3).blk t).view.emb (ix3 u p o) = ix3 b s o' := ⟨_, _, _, eq_ix3 _⟩
  have hb : win0_3.index t (0 : Fin 3) * 1 + 1 * u.val = b.val := congrArg (fun f => (f (0 : Fin 3)).val) hj
  have hs : win0_3.index t (1 : Fin 3) * 256 + 1 * p.val = s.val := congrArg (fun f => (f (1 : Fin 3)).val) hj
  have ho : win0_3.index t (2 : Fin 3) * 4096 + 1 * o.val = o'.val := congrArg (fun f => (f (2 : Fin 3)).val) hj
  rw [hj, lora_ix3]
  unfold loraAt
  refine congrArg (· * scale) (Finset.sum_congr rfl fun r _ => ?_)
  -- the matrix block is batch b of g
  have hg : iblk m c 2 t (ix3 (0 : Fin 1) r o) = V m c main_arg0 (ix3 b r o') := by
    show V m c main_arg0 (((cfg0.win 2).blk t).view.emb (ix3 (0 : Fin 1) r o)) = V m c main_arg0 (ix3 b r o')
    refine congrArg _ (funext fun a => Fin.ext ?_)
    match a with
    | ⟨0, _⟩ => show win0_2.index t (0 : Fin 3) * 1 + 1 * 0 = b.val; omega
    | ⟨1, _⟩ => show win0_2.index t (1 : Fin 3) * 128 + 1 * r.val = r.val; omega
    | ⟨2, _⟩ => show win0_2.index t (2 : Fin 3) * 4096 + 1 * o.val = o'.val; omega
  -- the x block's row p is row s of batch b
  have hx : ∀ i : Fin 4096, iblk m c 0 t (ix3 (0 : Fin 1) p i) = V m c main_arg1 (ix3 b s i) := fun i => by
    show V m c main_arg1 (((cfg0.win 0).blk t).view.emb (ix3 (0 : Fin 1) p i)) = V m c main_arg1 (ix3 b s i)
    refine congrArg _ (funext fun a => Fin.ext ?_)
    match a with
    | ⟨0, _⟩ => show win0_0.index t (0 : Fin 3) * 1 + 1 * 0 = b.val; omega
    | ⟨1, _⟩ => show win0_0.index t (1 : Fin 3) * 256 + 1 * p.val = s.val; omega
    | ⟨2, _⟩ => show win0_0.index t (2 : Fin 3) * 4096 + 1 * i.val = i.val; omega
  -- the weight block is the whole weight
  have hw : ∀ i : Fin 4096, iblk m c 1 t (ix2 r i) = V m c main_arg2 (ix2 r i) := fun i => by
    show V m c main_arg2 (((cfg0.win 1).blk t).view.emb (ix2 r i)) = V m c main_arg2 (ix2 r i)
    refine congrArg _ (funext fun a => Fin.ext ?_)
    match a with
    | ⟨0, _⟩ => show win0_1.index t (0 : Fin 2) * 128 + 1 * r.val = r.val; omega
    | ⟨1, _⟩ => show win0_1.index t (1 : Fin 2) * 4096 + 1 * i.val = i.val; omega
  rw [hg]
  unfold down
  exact congrArg (· * _) (Finset.sum_congr rfl fun i _ => by rw [hx, hw])

/-- An index of the result array is in point t's block iff each coordinate is in the block's range on its axis. -/
theorem mem_blk (t : Fin cfg0.N) (i : S8x2048x4096.Idx) :
    i ∈ ((cfg0.win 3).blk t).view.set ↔ ∀ a : Fin 3, win0_3.index t a * S1x256x4096.size a ≤ (i a).val ∧ (i a).val < win0_3.index t a * S1x256x4096.size a + S1x256x4096.size a := by
  show i ∈ ((View.whole main_v0).slice (win0_3.rect t)).set ↔ _
  rw [View.set_slice_whole, Rect.mem_set_unit]
  exact Iff.rfl

/-- Every index of the result array lies in the block of the point (batch, row / 256). -/
theorem cover (i : S8x2048x4096.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 4096 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- The result array after the run is the low-rank update of the arguments as launched. -/
theorem final (c : Dev nD) :
    (dats m 0 c).arrAt 3 cfg0.N
      = lora (m ((c : Thread nD τ).loc main_arg0)) (m ((c : Thread nD τ).loc main_arg1)) (m ((c : Thread nD τ).loc main_arg2)) :=
  (dats m 0 c).arrAt_eq_of_cover 3 (lora (V m c main_arg0) (V m c main_arg1) (V m c main_arg2))
    (fun t _ => flushed_eq m c t) cover

/-- The kernel's run with its result array named as the low-rank update, the arguments unchanged. -/
theorem run : θ_run defs (onTc (τ := τ) (main (F := Ideal))) ⟨m, fun _ => 0, ρ⟩ fun r => ∀ c : Dev nD,
      r.2.mem ((c : Thread nD τ).loc main_v0)
        = lora (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Lora.Blocks

end
-- ==== Proof.lean ====
/- A rank-128 adapter applied to a batch of sequences: out (b, s, o) = ( sum over r of down (b, s, r) * g (b, r, o) ) * 2
   with down (b, s, r) = sum over i of x (b, s, i) * w (r, i), over the extended reals.

   The kernel tiles the [8, 2048, 4096] result into 8 x 8 blocks of 256 rows; at each block it projects the 256 input
   rows onto the 128 rows of the down weight, multiplies the projection into that batch's 128 x 4096 matrix and scales
   by 2 (Proof/LoraPayload.lean reads the stored value at one index; Proof/LoraBlocks.lean shows that the blocks written
   back tile the array and that each is the same function of the whole argument arrays). The reference contracts the
   last axes of x and w, then contracts the projection with g batch by batch, then multiplies by 2
   (Proof/LoraRef.lean). Both are the nest of two sums of Proof/Spec.lean, term for term: the changes of float format
   are the identity, a product into a zero accumulator is the plain sum, and the scale is the same word on both sides.
   No rearrangement of a sum is needed, so the finiteness of the inputs is never used.

   The three programs' runs and unchanged arguments are the generated frames and the generated run of the reference; the
   idealization rewrote nothing, so its conjunct is trivial. -/
import proofs.«100756_j62156766708153_1_alg».proof.Defs
import proofs.«100756_j62156766708153_1_alg».proof.Proof.Gen.Kernel
import proofs.«100756_j62156766708153_1_alg».proof.Proof.Gen.Kernel.Skeleton
import proofs.«100756_j62156766708153_1_alg».proof.Proof.Gen.Kernel.Launch
import proofs.«100756_j62156766708153_1_alg».proof.Proof.Gen.Kernel.Points
import proofs.«100756_j62156766708153_1_alg».proof.Proof.Gen.Kernel.Frame
import proofs.«100756_j62156766708153_1_alg».proof.Proof.Gen.KernelIdeal
import proofs.«100756_j62156766708153_1_alg».proof.Proof.Gen.KernelIdeal.Skeleton
import proofs.«100756_j62156766708153_1_alg».proof.Proof.Gen.KernelIdeal.Launch
import proofs.«100756_j62156766708153_1_alg».proof.Proof.Gen.KernelIdeal.Points
import proofs.«100756_j62156766708153_1_alg».proof.Proof.Gen.KernelIdeal.Frame
import proofs.«100756_j62156766708153_1_alg».proof.Proof.Gen.ReferenceIdeal
import proofs.«100756_j62156766708153_1_alg».proof.Proof.Gen.Pre_finite_inputs
import proofs.«100756_j62156766708153_1_alg».proof.Proof.Gen.KernelIdeal.Value
import proofs.«100756_j62156766708153_1_alg».proof.Proof.Gen.ReferenceIdeal.Run
import proofs.«100756_j62156766708153_1_alg».proof.Proof.Gen.ReferenceIdeal.Read
import proofs.«100756_j62156766708153_1_alg».proof.Proof.LoraRef
import proofs.«100756_j62156766708153_1_alg».proof.Proof.LoraBlocks
import Idealize.ShloMosaic.Adequacy
import Idealize.ShloMosaic.Init

noncomputable section

namespace Cert.Proof

open Idealize.ShloMosaic Idealize.ShloMosaic.TcCoe Idealize.SL.Sem

/-- The kernel at the word level runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both idealized programs end with the low-rank update of those
    arguments in their result arrays. -/
theorem algebraic : Cert.algebraic_KernelIdeal_ReferenceIdeal := by
  intro m ρ m' ρ' _ hagree
  refine ⟨fun c => Cert.Lora.lora (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Lora.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.Lora.Ref.ref_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
